-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x256 : Shape := ⟨3, ![8, 4096, 256]⟩
abbrev S1x512x256 : Shape := ⟨3, ![1, 512, 256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S1x512x256 : S_.BroadcastsInDim S1x512x256 (![] : Fin 0 → Fin S1x512x256.rank)
  reducesTo_S1x512x256_S_d0_1_2 : S1x512x256.ReducesTo [0, 1, 2] S_

variable [Facts]

def fn {F : FTy → Type} [FloatOps F] (main_arg0 : FVec F S8x4096x256 .f32) (main_arg1 : FVec F S1x512x256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S1x512x256 .f32 := Host.absf main_arg1
  let main_cst_0 : FVec F S_ .f32 := constant S_ .f32 0x7F800000#32
  let main_v5 : FVec F S1x512x256 .f32 := broadcastInDim S1x512x256 ![] bcast_S_S1x512x256 main_cst_0
  let main_v6 : IVec S1x512x256 1 := cmpf .olt main_v4 main_v5
  let main_c_1 : IVec S_ 1 := constantI S_ 1 1#1
  let main_v7 : IVec S_ 1 := (fun x v => Host.reduce IntOp.andi x v reducesTo_S1x512x256_S_d0_1_2 h_S_) main_v6 main_c_1
  let main_v8 : IVec S_ 1 := andi main_v3 main_v7
  main_v8
-- ==== Kernel.lean ====
abbrev S8x4096x256 : Shape := ⟨3, ![8, 4096, 256]⟩
abbrev S1x512x256 : Shape := ⟨3, ![1, 512, 256]⟩
abbrev S8x4096x512 : Shape := ⟨3, ![8, 4096, 512]⟩
abbrev S1x1024x256 : Shape := ⟨3, ![1, 1024, 256]⟩
abbrev S1x1024x512 : Shape := ⟨3, ![1, 1024, 512]⟩
abbrev S1024x256 : Shape := ⟨2, ![1024, 256]⟩
abbrev S512x256 : Shape := ⟨2, ![512, 256]⟩
abbrev S1024 : Shape := ⟨1, ![1024]⟩
abbrev S1024x1 : Shape := ⟨2, ![1024, 1]⟩
abbrev S512 : Shape := ⟨1, ![512]⟩
abbrev S256x512 : Shape := ⟨2, ![256, 512]⟩
abbrev S1024x512 : Shape := ⟨2, ![1024, 512]⟩
abbrev S1x512 : Shape := ⟨2, ![1, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x4096x256, .f32⟩
  | .hbm, ⟨1, _⟩ => ⟨S1x512x256, .f32⟩
  | .hbm, ⟨2, _⟩ => ⟨S8x4096x512, .f32⟩
  | .local _ .vmem, ⟨0, _⟩ => ⟨S1x1024x256, .f32⟩
  | .local _ .vmem, ⟨1, _⟩ => ⟨S1x1024x256, .f32⟩
  | .local _ .vmem, ⟨2, _⟩ => ⟨S1x512x256, .f32⟩
  | .local _ .vmem, ⟨3, _⟩ => ⟨S1x1024x512, .f32⟩
  | .local _ .vmem, ⟨4, _⟩ => ⟨S1x1024x512, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  reduces_S1024x256_S1024 : S1024x256.Reduces [1] S1024
  shapeCasts_S1024_S1024x1 : S1024.ShapeCasts S1024x1
  reduces_S512x256_S512 : S512x256.Reduces [1] S512
  bitsLt_bf16_f32 : FTy.bits .bf16 < FTy.bits .f32
  transposes_S512x256_p1_0_S256x512 : S512x256.Transposes [1, 0] S256x512
  shapeCasts_S512_S1x512 : S512.ShapeCasts S1x512
  shapeCasts_S1x512_S1x512 : S1x512.ShapeCasts S1x512
  broadcasts_S1x512_S1024x512 : S1x512.Broadcasts S1024x512
  broadcasts_S1024x1_S1024x512 : S1024x1.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x4096x256.size a
  hwx0_0 : ∀ i : grid0.Coords, EltTy.bits .f32 = 32 ∨ (Rect.block (s := S8x4096x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S1x512x256.size a
  hwx0_1 : ∀ i : grid0.Coords, EltTy.bits .f32 = 32 ∨ (Rect.block (s := S1x512x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x4096x512.size a
  hwx0_2 : ∀ i : grid0.Coords, EltTy.bits .f32 = 32 ∨ (Rect.block (s := S8x4096x512) S1x1024x512.size (cc0_transform_2 i) (hinb0_2 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x256 : Shape := ⟨3, ![8, 4096, 256]⟩
abbrev S1x512x256 : Shape := ⟨3, ![1, 512, 256]⟩
abbrev S512x256 : Shape := ⟨2, ![512, 256]⟩
abbrev S_ : Shape := ⟨0, ![]⟩
abbrev S8x4096 : Shape := ⟨2, ![8, 4096]⟩
abbrev S8x4096x1 : Shape := ⟨3, ![8, 4096, 1]⟩
abbrev S512 : Shape := ⟨1, ![512]⟩
abbrev S8x4096x512 : Shape := ⟨3, ![8, 4096, 512]⟩
abbrev S1x1x512 : Shape := ⟨3, ![1, 1, 512]⟩

abbrev nBuf : Space → Nat
  | .hbm => 19
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S1x512x256, .f32⟩
  | .hbm, ⟨2, _⟩ => ⟨S512x256, .f32⟩
  | .hbm, ⟨3, _⟩ => ⟨S8x4096x256, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S512x256, .f32⟩
  | .hbm, ⟨8, _⟩ => ⟨S_, .f32⟩
  | .hbm, ⟨9, _⟩ => ⟨S512, .f32⟩
  | .hbm, ⟨10, _⟩ => ⟨S8x4096x512, .f32⟩
  | .hbm, ⟨11, _⟩ => ⟨S1x1x512, .f32⟩
  | .hbm, ⟨12, _⟩ => ⟨S8x4096x512, .f32⟩
  | .hbm, ⟨13, _⟩ => ⟨S8x4096x512, .f32⟩
  | .hbm, ⟨14, _⟩ => ⟨S8x4096x512, .f32⟩
  | .hbm, ⟨15, _⟩ => ⟨S_, .f32⟩
  | .hbm, ⟨16, _⟩ => ⟨S8x4096x512, .f32⟩
  | .hbm, ⟨17, _⟩ => ⟨S8x4096x512, .f32⟩
  | .hbm, ⟨18, _⟩ => ⟨S8x4096x512, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S1x512x256_S512x256 : S1x512x256.ShapeCasts S512x256
  reducesTo_S8x4096x256_S8x4096_d2 : S8x4096x256.ReducesTo [2] S8x4096
  h_S_ : 0 < S_.numel
  bcast_S8x4096_S8x4096x1_0_1 : S8x4096.BroadcastsInDim S8x4096x1 (![0, 1] : Fin 2 → Fin S8x4096x1.rank)
  reducesTo_S512x256_S512_d1 : S512x256.ReducesTo [1] S512
  bcast_S512_S1x1x512_2 : S512.BroadcastsInDim S1x1x512 (![2] : Fin 1 → Fin S1x1x512.rank)
  bcast_S8x4096x1_S8x4096x512_0_1_2 : S8x4096x1.BroadcastsInDim S8x4096x512 (![0, 1, 2] : Fin 3 → Fin S8x4096x512.rank)
  bcast_S1x1x512_S8x4096x512_0_1_2 : S1x1x512.BroadcastsInDim S8x4096x512 (![0, 1, 2] : Fin 3 → Fin S8x4096x512.rank)
  bcast_S_S8x4096x512 : S_.BroadcastsInDim S8x4096x512 (![] : Fin 0 → Fin S8x4096x512.rank)
  dot_S8x4096x256_S512x256_S8x4096x512_2_1_01_0_n_n_wf : DotDims.WF S8x4096x256 S512x256 S8x4096x512 [2] [1] [0, 1] [0] [] []

variable [Facts₀]

def dot_S8x4096x256_S512x256_S8x4096x512_2_1_01_0_n_n : DotDims S8x4096x256 S512x256 S8x4096x512 where
  lhsContracting := [2]
  rhsContracting := [1]
  lhsNonContracting := [0, 1]
  rhsNonContracting := [0]
  lhsBatch := []
  rhsBatch := []
  wf := dot_S8x4096x256_S512x256_S8x4096x512_2_1_01_0_n_n_wf

class Facts : Prop extends Facts₀ where

variable [Facts]
-- ==== Proof.LibKeepdims.lean ====
import Idealize.ShloMosaic.PureOps.Ideal.Laws
import Idealize.ShloMosaic.Lib.ValueIdx
import Idealize.ShloMosaic.Lib.Pipeline.Value

/-!
# A sum over the last axis kept as a column, read at an entry

`jnp.sum(x, axis=-1, keepdims=True)` of an `[a, b]` array lowers to three vector operations: a reduction over axis 1
into `[a]`, a shape cast of that vector to the column `[a, 1]`, and, where the column meets the array again, a broadcast
of the column along its unit axis back to `[a, b]`. Each is read here at an index written by coordinates: the column at
`(i, u)` is the vector at `i`, the broadcast at `(i, j)` is the column at `(i, 0)`, and on the extended reals the
reduction at `i` is the sum over `k` of the array at `(i, k)`.
-/

noncomputable section

namespace Cert.LibKeepdims

open Idealize.ShloMosaic Idealize.ShloMosaic.ValueIdx

variable {α : Type}

/-- An `[a]` vector cast to the column `[a, 1]` reads, at `(i, u)`, the vector at `i`: the row-major position of
    `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- On the extended reals a `vector.multi_reduction <add>` of an `[a, b]` array over axis 1, started from the zero word,
    is at `i` the sum over `k` of the array at `(i, k)`. The neutrality evidence is typed as a printed body carries it
    (an equation between the two zero words). -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

end Cert.LibKeepdims

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.TilePayload.lean ====
import proofs.«122948_j30829275251214_1_alg».proof.Proof.Gen.KernelIdeal.Skeleton
import proofs.«122948_j30829275251214_1_alg».proof.Proof.LibKeepdims
import proofs.«122948_j30829275251214_1_alg».proof.Proof.LibContract
import Idealize.ShloMosaic.Lib.ValueLayout
import Idealize.ShloMosaic.Lib.Pipeline.Value

/-!
# What one tile of the kernel stores, entry by entry

The body loads a tile of 1024 points `x[0, p, ·]` and all 512 centres `c[0, q, ·]` and stores, at `(0, p, q)`,
`(∑ k, x[p,k]² + ∑ k, c[q,k]²) − 2 · ∑ k, x[p,k] · c[q,k]`: the row sums are lane reductions from the zero word, kept as a
column and a row and broadcast over the tile; the product is a matrix product into zero of the points with the transposed
centres (the change of format to bf16 before it is the identity on the extended reals).
-/

noncomputable section

namespace Cert.KernelIdeal.Tile

open Cert.KernelIdeal Cert.KernelIdeal.Gen Idealize.ShloMosaic Idealize.ShloMosaic.ValueIdx
open Cert.LibKeepdims Cert.LibDense

/-- The printed contraction record is the plain rank-2 contraction `[1024, 256] × [256, 512]`. -/
theorem dot_eq_plain : dot_S1024x256_S256x512_S1024x512_1_0_0_1_n_n = DotDims.plain 1024 256 512 := rfl

/-- A lane sum from the zero word, with the neutrality evidence typed as the body carries it (an equation between the
    two zero words): at `i` the sum over `k` of the array at `(i, k)`. -/
theorem laneSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) :=
  rowSum_apply src 0x00000000#32 h hφ hacc i

/-- The stored tile at `(u, p, q)`, from the loaded points `x` and centres `c`. -/
theorem pay_apply (x : Vec Ideal S1x1024x256 .f32) (c : Vec Ideal S1x512x256 .f32) (u : Fin 1) (p : Fin 1024) (q : Fin 512) :
    k0_pay1 (F := Ideal) x c (ix3 u p q)
      = ((∑ k : Fin 256, x (ix3 (0 : Fin 1) p k) * x (ix3 (0 : Fin 1) p k))
          + ∑ k : Fin 256, c (ix3 (0 : Fin 1) q k) * c (ix3 (0 : Fin 1) q k))
        - Ideal.ofBits .f32 0x40000000#32 * ∑ k : Fin 256, x (ix3 (0 : Fin 1) p k) * c (ix3 (0 : Fin 1) q k) := by
  unfold k0_pay1
  rw [dot_eq_plain]
  simp only [shapeCast_ab_1ab_apply, subf_apply, addf_apply, mulf_apply, broadcast_apply,
    broadcastTo_a1_ab_apply, shapeCast_a_a1_apply, rowSum_apply,
    broadcastTo_1b_ab_apply, shapeCast_self, shapeCast_a_1a_apply,
    matmul_plain_zero_apply, truncf_apply, transpose_ix2_apply, shapeCast_1ab_ab_apply]
  rw [laneSum_apply (a := 1024) (b := 256), laneSum_apply (a := 512) (b := 256)]
  simp only [transpose_ix2_apply (a := 512) (b := 256), truncf_apply, mulf_apply, shapeCast_1ab_ab_apply, Ideal.ofBits_def]

end Cert.KernelIdeal.Tile

end
-- ==== Proof.SqDist.lean ====
import Idealize.ShloMosaic.PureOps.Ideal.Laws
import Idealize.ShloMosaic.Lib.ValueIdx

/-!
# Squared distances from points to centres, by the expansion of the square

For points `f[b, s, ·]` and centres `c[0, q, ·]` in 256 coordinates, the array computed is
`‖f[b,s]‖² + ‖c[q]‖² − 2 · ⟨f[b,s], c[q]⟩`, entry by entry on the extended reals, with the three sums over the
coordinate `k` kept as they are written: no distributivity is used, so nothing here needs the entries to be finite.
The factor `2` is kept as the f32 word `0x40000000` both programs carry.
-/

noncomputable section

namespace Cert.SqDist

open Idealize.ShloMosaic Idealize.ShloMosaic.ValueIdx

/-- The squared norm of the point `(b, s)`: the sum over `k` of the squares of its coordinates. -/
def pointSq (f : FVec Ideal ⟨3, ![8, 4096, 256]⟩ .f32) (b : Fin 8) (s : Fin 4096) : EReal :=
  ∑ k : Fin 256, f (ix3 b s k) * f (ix3 b s k)

/-- The squared norm of the centre `q`. -/
def centreSq (c : FVec Ideal ⟨3, ![1, 512, 256]⟩ .f32) (q : Fin 512) : EReal :=
  ∑ k : Fin 256, c (ix3 (0 : Fin 1) q k) * c (ix3 (0 : Fin 1) q k)

/-- The inner product of the point `(b, s)` with the centre `q`. -/
def pointDotCentre (f : FVec Ideal ⟨3, ![8, 4096, 256]⟩ .f32) (c : FVec Ideal ⟨3, ![1, 512, 256]⟩ .f32)
    (b : Fin 8) (s : Fin 4096) (q : Fin 512) : EReal :=
  ∑ k : Fin 256, f (ix3 b s k) * c (ix3 (0 : Fin 1) q k)

/-- The whole result: at `(b, s, q)` the two squared norms added, less twice the inner product. -/
def sqDist (f : FVec Ideal ⟨3, ![8, 4096, 256]⟩ .f32) (c : FVec Ideal ⟨3, ![1, 512, 256]⟩ .f32) :
    FVec Ideal ⟨3, ![8, 4096, 512]⟩ .f32 :=
  fun i => (pointSq f (i 0) (i 1) + centreSq c (i 2)) - Ideal.ofBits .f32 0x40000000#32 * pointDotCentre f c (i 0) (i 1) (i 2)

theorem sqDist_apply (f : FVec Ideal ⟨3, ![8, 4096, 256]⟩ .f32) (c : FVec Ideal ⟨3, ![1, 512, 256]⟩ .f32)
    (b : Fin 8) (s : Fin 4096) (q : Fin 512) :
    sqDist f c (ix3 b s q)
      = (pointSq f b s + centreSq c q) - Ideal.ofBits .f32 0x40000000#32 * pointDotCentre f c b s q := rfl

end Cert.SqDist

end
-- ==== Proof.KernelDist.lean ====
import proofs.«122948_j30829275251214_1_alg».proof.Proof.Gen.KernelIdeal.Value
import proofs.«122948_j30829275251214_1_alg».proof.Proof.TilePayload
import proofs.«122948_j30829275251214_1_alg».proof.Proof.SqDist

/-!
# The kernel's result array is the squared-distance array

Grid point `t = (b, r)` stages rows `1024·r … 1024·r + 1023` of batch `b` of the points, all the centres, and writes back
the same rows of batch `b` of the result. Its stored tile is the squared-distance array restricted to that block
(`TilePayload`), and the 32 blocks tile the result array, so the array ends holding the squared-distance array everywhere.
-/

noncomputable section

namespace Cert.KernelIdeal.Dist

open Cert.KernelIdeal Cert.KernelIdeal.Gen Cert.KernelIdeal.Value Cert.KernelIdeal.Tile
open Idealize.ShloMosaic Idealize.ShloMosaic.TcCoe Idealize.SL.Sem Idealize.ShloMosaic.ValueIdx Cert.SqDist
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- A stored tile entry against the array entry it lands on: if row `p` of the loaded points is row `(b, s)` of the
    points array and the loaded centres are the centres array, the tile at `(u, p, q)` is the squared distance at
    `(b, s, q)`. -/
theorem tile_entry (X : FVec Ideal S8x4096x256 .f32) (C : FVec Ideal S1x512x256 .f32)
    (x : Vec Ideal S1x1024x256 .f32) (cc : Vec Ideal S1x512x256 .f32)
    (u : Fin 1) (p : Fin 1024) (q : Fin 512) (b : Fin 8) (s : Fin 4096)
    (hx : ∀ k : Fin 256, x (ix3 (0 : Fin 1) p k) = X (ix3 b s k))
    (hc : ∀ k : Fin 256, cc (ix3 (0 : Fin 1) q k) = C (ix3 (0 : Fin 1) q k)) :
    k0_pay1 (F := Ideal) x cc (ix3 u p q) = sqDist X C (ix3 b s q) := by
  rw [pay_apply, sqDist_apply]
  simp only [pointSq, centreSq, pointDotCentre, hx, hc]

/-- The printed index maps, decided over the 32 grid points: the points' window moves with the result's window on the
    batch and row axes, the centres' window stays at the origin, and the result's block indices stay in range. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = 0 ∧ win0_1.index t (1 : Fin 3) = 0 ∧ win0_1.index t (2 : Fin 3) = 0
    ∧ win0_2.index t (0 : Fin 3) ≤ 7 ∧ win0_2.index t (1 : Fin 3) ≤ 3 ∧ win0_2.index t (2 : Fin 3) = 0 :=
  (by decide +kernel : ∀ t : Fin grid0.N, _)

/-- Every block `(b, r)` of the result is some grid point's. -/
theorem idx_onto : ∀ (b : Fin 8) (r : Fin 4), ∃ t : Fin cfg0.N, win0_2.index t = ![b.val, r.val, 0] :=
  (by decide +kernel : ∀ (b : Fin 8) (r : Fin 4), ∃ t : Fin grid0.N, win0_2.index t = ![b.val, r.val, 0])

/-- What point `t` writes back is block `t` of the squared-distance array of the arguments. -/
theorem flushed_eq (c : Dev nD) (t : Fin cfg0.N) :
    (dats m 0 c).flushed 2 t
      = ((cfg0.win 2).blk t).view.read (Elt Ideal) (sqDist (V m c main_arg0) (V m c main_arg1)) := by
  rw [flushed2]
  unfold out0_2
  rw [View.canon_unit_zero hz]
  simp only [View.ld_unit_zero (S := S1x1024x256) hz, View.ld_unit_zero (S := S1x512x256) hz]
  obtain ⟨e00, e01, e02, e10, e11, e12, e20, e21, e22⟩ := idx_facts t
  funext j
  have hj0 : (j 0).val < 1 := (j 0).isLt
  have hj1 : (j 1).val < 1024 := (j 1).isLt
  have hj2 : (j 2).val < 512 := (j 2).isLt
  show k0_pay1 (F := Ideal) (iblk m c 0 t) (iblk m c 1 t) j
    = sqDist (V m c main_arg0) (V m c main_arg1) (((cfg0.win 2).blk t).view.emb j)
  have hi : ((cfg0.win 2).blk t).view.emb j
      = ix3 (⟨win0_2.index t (0 : Fin 3), by omega⟩ : Fin 8)
          (⟨win0_2.index t (1 : Fin 3) * 1024 + (j 1).val, by omega⟩ : Fin 4096) (⟨(j 2).val, hj2⟩ : Fin 512) := by
    funext a; apply Fin.ext
    match a with
    | ⟨0, _⟩ => show win0_2.index t (0 : Fin 3) * 1 + 1 * (j 0).val = win0_2.index t (0 : Fin 3); omega
    | ⟨1, _⟩ => show win0_2.index t (1 : Fin 3) * 1024 + 1 * (j 1).val = win0_2.index t (1 : Fin 3) * 1024 + (j 1).val; omega
    | ⟨2, _⟩ => show win0_2.index t (2 : Fin 3) * 512 + 1 * (j 2).val = (j 2).val; omega
  refine ((congrArg (k0_pay1 (F := Ideal) (iblk m c 0 t) (iblk m c 1 t)) (eq_ix3 j)).trans
    (tile_entry (V m c main_arg0) (V m c main_arg1) (iblk m c 0 t) (iblk m c 1 t) (j 0) (j 1) (j 2)
      ⟨win0_2.index t (0 : Fin 3), by omega⟩ ⟨win0_2.index t (1 : Fin 3) * 1024 + (j 1).val, by omega⟩ ?_ ?_)).trans
    (congrArg (sqDist (V m c main_arg0) (V m c main_arg1)) hi.symm)
  · intro k
    have hk : k.val < 256 := k.isLt
    show V m c main_arg0 (((cfg0.win 0).blk t).view.emb (ix3 (0 : Fin 1) (j 1) k)) = V m c main_arg0 _
    refine congrArg (V m c main_arg0) (funext fun a => Fin.ext ?_)
    match a with
    | ⟨0, _⟩ => show win0_0.index t (0 : Fin 3) * 1 + 1 * 0 = win0_2.index t (0 : Fin 3); omega
    | ⟨1, _⟩ => show win0_0.index t (1 : Fin 3) * 1024 + 1 * (j 1).val = win0_2.index t (1 : Fin 3) * 1024 + (j 1).val; omega
    | ⟨2, _⟩ => show win0_0.index t (2 : Fin 3) * 256 + 1 * k.val = k.val; omega
  · intro k
    have hk : k.val < 256 := k.isLt
    show V m c main_arg1 (((cfg0.win 1).blk t).view.emb (ix3 (0 : Fin 1) (j 2) k)) = V m c main_arg1 _
    refine congrArg (V m c main_arg1) (funext fun a => Fin.ext ?_)
    match a with
    | ⟨0, _⟩ => show win0_1.index t (0 : Fin 3) * 1 + 1 * 0 = 0; omega
    | ⟨1, _⟩ => show win0_1.index t (1 : Fin 3) * 512 + 1 * (j 2).val = (j 2).val; omega
    | ⟨2, _⟩ => show win0_1.index t (2 : Fin 3) * 256 + 1 * k.val = k.val; omega

/-- An index of the result array is in point `t`'s block iff each coordinate is in the block's range on its axis. -/
theorem mem_blk (t : Fin cfg0.N) (i : S8x4096x512.Idx) :
    i ∈ ((cfg0.win 2).blk t).view.set ↔ ∀ a : Fin 3, win0_2.index t a * S1x1024x512.size a ≤ (i a).val
      ∧ (i a).val < win0_2.index t a * S1x1024x512.size a + S1x1024x512.size a := by
  show i ∈ ((View.whole main_v0).slice (win0_2.rect t)).set ↔ _
  rw [View.set_slice_whole, Rect.mem_set_unit]
  exact Iff.rfl

/-- The blocks tile the result array: the entry `(b, s, q)` lies in the block of the point at `(b, s / 1024)`. -/
theorem cover (i : S8x4096x512.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 512 := (i 2).isLt
  obtain ⟨t, ht⟩ := idx_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 512 ≤ (i 2).val ∧ (i 2).val < win0_2.index t (2 : Fin 3) * 512 + 512; omega

/-- The result array after the run is the squared-distance array of the two arguments as launched. -/
theorem final (c : Dev nD) :
    (dats m 0 c).arrAt 2 cfg0.N
      = sqDist (m ((c : Thread nD τ).loc main_arg0)) (m ((c : Thread nD τ).loc main_arg1)) :=
  (dats m 0 c).arrAt_eq_of_cover 2 (sqDist (V m c main_arg0) (V m c main_arg1)) (fun t _ => flushed_eq m c t) cover

/-- The kernel's run, read: the result at the squared-distance array, the arguments unchanged. -/
theorem run : θ_run defs (onTc (τ := τ) (main (F := Ideal))) ⟨m, fun _ => 0, ρ⟩ fun r => ∀ c : Dev nD,
      r.2.mem ((c : Thread nD τ).loc main_v0)
        = sqDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Dist

end
-- ==== Proof.RefIsSqDist.lean ====
import proofs.«122948_j30829275251214_1_alg».proof.Proof.Gen.ReferenceIdeal.Read
import proofs.«122948_j30829275251214_1_alg».proof.Proof.SqDist

/-!
# The reference's result is the squared-distance array

Read one operation at a time, the reference's last stage at `(b, s, q)` is
`((0 + ∑ k, f[b,s,k]²) + (0 + ∑ k, c[0,q,k]²)) − 2 · ∑ k, f[b,s,k] · c[0,q,k]`: the centres' leading unit axis is dropped by a
reshape, the two sums start from the zero word, and the contraction is over the last axis of both operands. The zero
word is the real zero, so the two initial values drop.
-/

noncomputable section

namespace Cert.ReferenceIdeal.Dist

open Cert.ReferenceIdeal Cert.ReferenceIdeal.Read Idealize.ShloMosaic Idealize.ShloMosaic.ValueIdx Cert.SqDist

/-- The centres with their unit axis dropped read, at `(q, k)`, the centres at `(0, q, k)`. -/
theorem centres_apply (c : FVec Ideal S1x512x256 .f32) (q : Fin 512) (k : Fin 256) :
    val_main_v0 (F := Ideal) c (ix2 q k) = c (ix3 (0 : Fin 1) q k) := by
  rw [val_main_v0_apply]
  refine congrArg c (funext fun a => Fin.ext ?_)
  have hq := q.isLt
  have hk := k.isLt
  match a with
  | ⟨0, _⟩ => rfl
  | ⟨1, _⟩ => show (q.val * 256 + k.val) / 256 % 512 = q.val; omega
  | ⟨2, _⟩ => show (q.val * 256 + k.val) % 256 = k.val; omega

/-- The reference's result array is `sqDist` of its two arguments. -/
theorem result_eq (f : FVec Ideal S8x4096x256 .f32) (c : FVec Ideal S1x512x256 .f32) :
    val_main_v13 (F := Ideal) f c = sqDist f c := by
  funext i
  obtain ⟨b, s, q, rfl⟩ : ∃ (b : Fin 8) (s : Fin 4096) (q : Fin 512), i = ix3 b s q := ⟨i 0, i 1, i 2, eq_ix3 i⟩
  have e2 : ∀ k : Fin 256, idx_main_v2 (idx_main_v3 (idx_main_v8 (ix3 b s q))) k = ix3 b s k := fun k =>
    funext fun a => Fin.ext (by match a with | ⟨0, _⟩ => rfl | ⟨1, _⟩ => rfl | ⟨2, _⟩ => rfl)
  have e5 : ∀ k : Fin 256, idx_main_v5 (idx_main_v7 (idx_main_v9 (ix3 b s q))) k = ix2 q k := fun k =>
    funext fun a => Fin.ext (by match a with | ⟨0, _⟩ => rfl | ⟨1, _⟩ => rfl)
  have el : ∀ k : Fin 256, lidx_main_v6 (ix3 b s q) k = ix3 b s k := fun k =>
    funext fun a => Fin.ext (by match a with | ⟨0, _⟩ => rfl | ⟨1, _⟩ => rfl | ⟨2, _⟩ => rfl)
  have er : ∀ k : Fin 256, ridx_main_v6 (ix3 b s q) k = ix2 q k := fun k =>
    funext fun a => Fin.ext (by match a with | ⟨0, _⟩ => rfl | ⟨1, _⟩ => rfl)
  rw [val_main_v13_apply, val_main_v10_apply, val_main_v12_apply, val_main_v8_apply, val_main_v3_apply, val_main_v2_apply,
    val_main_v9_apply, val_main_v7_apply, val_main_v5_apply, val_main_v11_apply, val_main_v6_apply, sqDist_apply]
  simp only [val_main_v1_apply, val_main_v4_apply, val_main_cst_apply, val_main_cst_0_apply, val_main_cst_1_apply,
    e2, e5, el, er, centres_apply, Ideal.subf_def, Ideal.addf_def, Ideal.mulf_def, Ideal.ofBits_def, Ideal.ofBits_zero_f32,
    zero_add, pointSq, centreSq, pointDotCentre]

end Cert.ReferenceIdeal.Dist

end
-- ==== Proof.lean ====
/- Squared distances from 8 × 4096 points to 512 centres in 256 coordinates: the kernel's tiled computation against
   the reference's whole-array one, both by the expansion `‖f‖² + ‖c‖² − 2⟨f, c⟩`.
   On the extended reals both programs end with the same array, `Cert.SqDist.sqDist` of the two arguments: the kernel's
   result block by block (each of the 32 grid points writes the 1024 × 512 block of its batch and row tile, and the
   blocks tile the array), the reference's operation by operation. The two sides spell the three sums over the
   coordinate the same way and in the same association, so no algebraic law beyond `0 + x = x` joins them and the
   precondition is never opened. The word-level kernel and the idealized one run, terminate and keep their arguments
   by the generated class-A frames; the reference's frame is its generated run with the result dropped; the ideal pass
   rewrote nothing, so the idealization claim is trivial. -/
import proofs.«122948_j30829275251214_1_alg».proof.Defs
import proofs.«122948_j30829275251214_1_alg».proof.Proof.Gen.Kernel
import proofs.«122948_j30829275251214_1_alg».proof.Proof.Gen.Kernel.Skeleton
import proofs.«122948_j30829275251214_1_alg».proof.Proof.Gen.Kernel.Launch
import proofs.«122948_j30829275251214_1_alg».proof.Proof.Gen.Kernel.Points
import proofs.«122948_j30829275251214_1_alg».proof.Proof.Gen.Kernel.Frame
import proofs.«122948_j30829275251214_1_alg».proof.Proof.Gen.KernelIdeal
import proofs.«122948_j30829275251214_1_alg».proof.Proof.Gen.KernelIdeal.Skeleton
import proofs.«122948_j30829275251214_1_alg».proof.Proof.Gen.KernelIdeal.Launch
import proofs.«122948_j30829275251214_1_alg».proof.Proof.Gen.KernelIdeal.Points
import proofs.«122948_j30829275251214_1_alg».proof.Proof.Gen.KernelIdeal.Frame
import proofs.«122948_j30829275251214_1_alg».proof.Proof.Gen.ReferenceIdeal
import proofs.«122948_j30829275251214_1_alg».proof.Proof.Gen.KernelIdeal.Value
import proofs.«122948_j30829275251214_1_alg».proof.Proof.Gen.ReferenceIdeal.Run
import proofs.«122948_j30829275251214_1_alg».proof.Proof.Gen.ReferenceIdeal.Read
import proofs.«122948_j30829275251214_1_alg».proof.Proof.Gen.Pre_finite_inputs
import proofs.«122948_j30829275251214_1_alg».proof.Proof.KernelDist
import proofs.«122948_j30829275251214_1_alg».proof.Proof.RefIsSqDist
import Idealize.ShloMosaic.Adequacy
import Idealize.ShloMosaic.Init

noncomputable section

namespace Cert.Proof

open Idealize.ShloMosaic Idealize.SL.Sem

/-- The word-level kernel runs and keeps its arguments: the generated frame. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference runs and keeps its arguments: its generated run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both idealized programs end with the squared-distance array of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Dist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.Dist.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
